-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg6 : FVec F S128 .f32) (main_arg7 : FVec F S128x4 .f32) (main_arg8 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg7
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg8
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x4 .f32) (main_arg8 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x4 : Shape := ⟨2, ![1, 4]⟩
abbrev S2000x128 : Shape := ⟨2, ![2000, 128]⟩
abbrev S2000x1 : Shape := ⟨2, ![2000, 1]⟩
abbrev S1600000x128 : Shape := ⟨2, ![1600000, 128]⟩
abbrev S100000x4 : Shape := ⟨2, ![100000, 4]⟩
abbrev S2000x4 : Shape := ⟨2, ![2000, 4]⟩

abbrev nBuf : Space → Nat
  | .hbm => 67
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x4, .f32⟩
  | .hbm, ⟨8, _⟩ => ⟨S4, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S1x128, .f32⟩
  | .hbm, ⟨37, _⟩ => ⟨S1x4, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x4, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S128x4, .f32⟩
  | .local _ .vmem, ⟨23, _⟩ => ⟨S1x4, .f32⟩
  | .local _ .vmem, ⟨24, _⟩ => ⟨S2000x4, .f32⟩
  | .local _ .vmem, ⟨25, _⟩ => ⟨S2000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S4_S1x4 : S4.ShapeCasts S1x4
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x4_S2000x4_1_0_0_1_n_n_wf : DotDims.WF S2000x128 S128x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x4.size a ≤ S128x4.size a
  hwx2_3 : ∀ i : grid2.Coords, EltTy.bits .f32 = 32 ∨ (Rect.block (s := S128x4) S128x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x4.size a ≤ S100000x4.size a
  hwx2_5 : ∀ i : grid2.Coords, EltTy.bits .f32 = 32 ∨ (Rect.block (s := S100000x4) S2000x4.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x4 : Shape := ⟨2, ![100000, 4]⟩
abbrev S1x4 : Shape := ⟨2, ![1, 4]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x4, .f32⟩
  | .hbm, ⟨8, _⟩ => ⟨S4, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x4, .f32⟩
  | .hbm, ⟨110, _⟩ => ⟨S1x4, .f32⟩
  | .hbm, ⟨111, _⟩ => ⟨S100000x4, .f32⟩
  | .hbm, ⟨112, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_14 : Ref sig .tc := ⟨.hbm, 84, rfl⟩
abbrev main_v49 : Ref sig .tc := ⟨.hbm, 85, rfl⟩
abbrev main_v50 : Ref sig .tc := ⟨.hbm, 86, rfl⟩
abbrev main_c_15 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_16 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x4_S100000x4_1_0_0_1_n_n_wf : DotDims.WF S100000x128 S128x4 S100000x4 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.RefRead.lean ====
/-
  The reference program's run, read one host operation at a time: this module only gathers the two read-back modules
  of the reference so that the modules that reason about the reference's result import one name.
-/
import proofs.«130394_j56942676410567_1_alg».proof.Proof.Gen.ReferenceIdeal.Run
import proofs.«130394_j56942676410567_1_alg».proof.Proof.Gen.ReferenceIdeal.Read
-- ==== Proof.LibReshape.lean ====
/-
  A vector laid out as a column, or as a row: reshaping a length-n vector to n × 1 (or to 1 × n) gives the same array
  as broadcasting it along the new unit axis, because both read entry (r, 0) (or (0, k)) from entry r (or k) of the
  vector. Stated for the three lengths met here (100000, 128 and 4) so that each size test is a closed numeral.
-/
import Idealize.ShloMosaic.Lib.Pipeline.Value
import Idealize.ShloMosaic.Lib.ValueIdx

noncomputable section

namespace Cert.LibReshape

open Idealize.ShloMosaic Idealize.ShloMosaic.ValueIdx

variable {α : Type}

/-- A length-100000 vector as a 100000 × 1 column: the reshape is the broadcast along axis 0. -/
theorem column_100000 (y : (⟨1, ![100000]⟩ : Shape).Idx → α)
    (h1 : (⟨1, ![100000]⟩ : Shape).ShapeCasts ⟨2, ![100000, 1]⟩)
    (h2 : (⟨1, ![100000]⟩ : Shape).BroadcastsInDim ⟨2, ![100000, 1]⟩ ![0]) :
    shapeCast ⟨2, ![100000, 1]⟩ y h1 = broadcastInDim ⟨2, ![100000, 1]⟩ ![0] h2 y := by
  funext j
  have hj : (j 1).val < 1 := (j 1).isLt
  rw [shapeCast_apply y h1 j (ix1 (j 0)) (by
        rw [Shape.rowMajor_val_one, Shape.rowMajor_val_two]
        show (j 0).val = (j 0).val * 1 + (j 1).val
        omega),
    broadcastInDim_apply ![0] h2 y j (ix1 (j 0)) (fun a => by match a with | ⟨0, _⟩ => rfl)]

/-- A length-128 vector as a 1 × 128 row: the reshape is the broadcast along axis 1. -/
theorem row_128 (y : (⟨1, ![128]⟩ : Shape).Idx → α)
    (h1 : (⟨1, ![128]⟩ : Shape).ShapeCasts ⟨2, ![1, 128]⟩)
    (h2 : (⟨1, ![128]⟩ : Shape).BroadcastsInDim ⟨2, ![1, 128]⟩ ![1]) :
    shapeCast ⟨2, ![1, 128]⟩ y h1 = broadcastInDim ⟨2, ![1, 128]⟩ ![1] h2 y := by
  funext j
  have hj : (j 0).val < 1 := (j 0).isLt
  rw [shapeCast_apply y h1 j (ix1 (j 1)) (by
        rw [Shape.rowMajor_val_one, Shape.rowMajor_val_two]
        show (j 1).val = (j 0).val * 128 + (j 1).val
        omega),
    broadcastInDim_apply ![1] h2 y j (ix1 (j 1)) (fun a => by match a with | ⟨0, _⟩ => rfl)]

/-- A length-4 vector as a 1 × 4 row: the reshape is the broadcast along axis 1. -/
theorem row_4 (y : (⟨1, ![4]⟩ : Shape).Idx → α)
    (h1 : (⟨1, ![4]⟩ : Shape).ShapeCasts ⟨2, ![1, 4]⟩)
    (h2 : (⟨1, ![4]⟩ : Shape).BroadcastsInDim ⟨2, ![1, 4]⟩ ![1]) :
    shapeCast ⟨2, ![1, 4]⟩ y h1 = broadcastInDim ⟨2, ![1, 4]⟩ ![1] h2 y := by
  funext j
  have hj : (j 0).val < 1 := (j 0).isLt
  rw [shapeCast_apply y h1 j (ix1 (j 1)) (by
        rw [Shape.rowMajor_val_one, Shape.rowMajor_val_two]
        show (j 1).val = (j 0).val * 4 + (j 1).val
        omega),
    broadcastInDim_apply ![1] h2 y j (ix1 (j 1)) (fun a => by match a with | ⟨0, _⟩ => rfl)]

end Cert.LibReshape

end
-- ==== Proof.KernelEntry.lean ====
/-
  What the degree-factor columns and the bias rows hold when the first pallas_call is entered, in terms of the arrays
  @main was launched with. The host operations before the first call count, from an edge list, how many edges leave
  (or reach) each node, clip the count below at 1, raise it to the power −1/2 and lay the result out as a column; and
  they lay the three bias vectors out as rows. The reference applies the same chain of host operations to the same edge
  list, so each buffer is the reference's value of that stage: the two chains are the same operations in the same
  order, whatever the float operations denote, which is why these statements are made for every reading of the floats
  and not only for the extended reals. A column the kernel's program makes by a reshape is the column the reference
  makes by a broadcast along the unit axis, entry by entry.
-/
import proofs.«130394_j56942676410567_1_alg».proof.Proof.Gen.KernelIdeal.Frame
import proofs.«130394_j56942676410567_1_alg».proof.Proof.RefRead
import proofs.«130394_j56942676410567_1_alg».proof.Proof.LibReshape
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (m : (ℓ : Loc nD τ sig) → Buf (Elt F) ℓ) (ρ : Dev nD → PrngReg) (c : Dev nD)

/-! ## The degree factors as columns -/

/-- The outgoing-degree factors, as a column. -/
theorem W5_v11 : W5 m ρ c (Proc.devRef .tc main_v11) = val_main_v11 (F := F) (m ((c : Thread nD τ).loc main_arg1)) := by
  refine Eq.trans ?_ (Cert.LibReshape.column_100000 (val_main_v10 (F := F) (m ((c : Thread nD τ).loc main_arg1))) shapeCasts_S100000_S100000x1 _)
  after_results
  rfl

/-- The incoming-degree factors, as a column. -/
theorem W5_v14 : W5 m ρ c (Proc.devRef .tc main_v14) = val_main_v27 (F := F) (m ((c : Thread nD τ).loc main_arg2)) := by
  refine Eq.trans ?_ (Cert.LibReshape.column_100000 (val_main_v26 (F := F) (m ((c : Thread nD τ).loc main_arg2))) shapeCasts_S100000_S100000x1 _)
  after_results
  rfl

/-! ## The biases as rows -/

/-- The first layer's bias, as a row. -/
theorem W5_v15 : W5 m ρ c (Proc.devRef .tc main_v15) = val_main_v30 (F := F) (m ((c : Thread nD τ).loc main_arg4)) := by
  refine Eq.trans ?_ (Cert.LibReshape.row_128 (m ((c : Thread nD τ).loc main_arg4)) shapeCasts_S128_S1x128 _)
  after_results
  rfl

/-- The second layer's bias, as a row. -/
theorem W5_v16 : W5 m ρ c (Proc.devRef .tc main_v16) = val_main_v64 (F := F) (m ((c : Thread nD τ).loc main_arg6)) := by
  refine Eq.trans ?_ (Cert.LibReshape.row_128 (m ((c : Thread nD τ).loc main_arg6)) shapeCasts_S128_S1x128 _)
  after_results
  rfl

/-- The classifier's bias, as a row. -/
theorem W5_v17 : W5 m ρ c (Proc.devRef .tc main_v17) = val_main_v69 (F := F) (m ((c : Thread nD τ).loc main_arg8)) := by
  refine Eq.trans ?_ (Cert.LibReshape.row_4 (m ((c : Thread nD τ).loc main_arg8)) shapeCasts_S4_S1x4 _)
  after_results
  rfl

end Cert.KernelIdeal.Walk

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The three dense stages of the two-layer graph convolution, each as one function of whole arrays, entry by entry,
  on the extended reals.

  Notation: `x` is an array of 100000 rows (one per node) and 128 columns; `s`, `sIn`, `sOut` are per-node scale
  factors kept as columns (100000 × 1); `b` is a bias kept as a row (1 × 128); `w` is a weight matrix; `z` is the
  zero the activation compares against.

    projection of scaled rows    (r, c) ↦ Σ_k (x(r,k) · s(r)) · w(k,c)
    activation of a node's row   (r, k) ↦ max (a(r,k) · sIn(r) + b(k)) z
    activated, rescaled, projected  (r, c) ↦ Σ_k (act(r,k) · sOut(r)) · w(k,c)
    activated, classified        (r, c) ↦ (Σ_k act(r,k) · w(k,c)) + bc(c)

  A sum here is a finite sum of extended reals in the order of `k`; nothing below rearranges one, so no
  finiteness of the entries is used.
-/
import Idealize.ShloMosaic.Lib.ValueIdx
import Idealize.ShloMosaic.PureOps.Ideal.Laws

noncomputable section

open scoped BigOperators

namespace Cert.Spec

open Idealize.ShloMosaic Idealize.ShloMosaic.ValueIdx

/-- The zero of the activation: the real number the all-zero 32-bit pattern denotes. -/
abbrev zero32 : EReal := Ideal.ofBits .f32 0x00000000#32

/-- Row `r` of `x`, each entry scaled by the node's factor `s(r)`, against column `c` of `w`. -/
def scaledProj (x : (⟨2, ![100000, 128]⟩ : Shape).Idx → EReal) (s : (⟨2, ![100000, 1]⟩ : Shape).Idx → EReal)
    (w : (⟨2, ![128, 128]⟩ : Shape).Idx → EReal) : (⟨2, ![100000, 128]⟩ : Shape).Idx → EReal :=
  fun i => ∑ k : Fin 128, (x (ix2 (i 0) k) * s (ix2 (i 0) (0 : Fin 1))) * w (ix2 k (i 1))

theorem scaledProj_apply (x : (⟨2, ![100000, 128]⟩ : Shape).Idx → EReal) (s : (⟨2, ![100000, 1]⟩ : Shape).Idx → EReal)
    (w : (⟨2, ![128, 128]⟩ : Shape).Idx → EReal) (r : Fin 100000) (c : Fin 128) :
    scaledProj x s w (ix2 r c) = ∑ k : Fin 128, (x (ix2 r k) * s (ix2 r (0 : Fin 1))) * w (ix2 k c) := rfl

/-- A node's aggregated row after the incoming-degree scale, the bias and the activation. -/
def act (a : (⟨2, ![100000, 128]⟩ : Shape).Idx → EReal) (sIn : (⟨2, ![100000, 1]⟩ : Shape).Idx → EReal)
    (b : (⟨2, ![1, 128]⟩ : Shape).Idx → EReal) (r : Fin 100000) (k : Fin 128) : EReal :=
  max (a (ix2 r k) * sIn (ix2 r (0 : Fin 1)) + b (ix2 (0 : Fin 1) k)) zero32

/-- The activated row, rescaled by the outgoing-degree factor, against column `c` of the next layer's weights. -/
def actScaledProj (a : (⟨2, ![100000, 128]⟩ : Shape).Idx → EReal) (sIn : (⟨2, ![100000, 1]⟩ : Shape).Idx → EReal)
    (b : (⟨2, ![1, 128]⟩ : Shape).Idx → EReal) (sOut : (⟨2, ![100000, 1]⟩ : Shape).Idx → EReal)
    (w : (⟨2, ![128, 128]⟩ : Shape).Idx → EReal) : (⟨2, ![100000, 128]⟩ : Shape).Idx → EReal :=
  fun i => ∑ k : Fin 128, (act a sIn b (i 0) k * sOut (ix2 (i 0) (0 : Fin 1))) * w (ix2 k (i 1))

theorem actScaledProj_apply (a : (⟨2, ![100000, 128]⟩ : Shape).Idx → EReal) (sIn : (⟨2, ![100000, 1]⟩ : Shape).Idx → EReal)
    (b : (⟨2, ![1, 128]⟩ : Shape).Idx → EReal) (sOut : (⟨2, ![100000, 1]⟩ : Shape).Idx → EReal)
    (w : (⟨2, ![128, 128]⟩ : Shape).Idx → EReal) (r : Fin 100000) (c : Fin 128) :
    actScaledProj a sIn b sOut w (ix2 r c)
      = ∑ k : Fin 128, (act a sIn b r k * sOut (ix2 r (0 : Fin 1))) * w (ix2 k c) := rfl

/-- The activated row against column `c` of the classifier's weights, plus the classifier's bias. -/
def actClassify (a : (⟨2, ![100000, 128]⟩ : Shape).Idx → EReal) (sIn : (⟨2, ![100000, 1]⟩ : Shape).Idx → EReal)
    (b : (⟨2, ![1, 128]⟩ : Shape).Idx → EReal) (w : (⟨2, ![128, 4]⟩ : Shape).Idx → EReal)
    (bc : (⟨2, ![1, 4]⟩ : Shape).Idx → EReal) : (⟨2, ![100000, 4]⟩ : Shape).Idx → EReal :=
  fun i => (∑ k : Fin 128, act a sIn b (i 0) k * w (ix2 k (i 1))) + bc (ix2 (0 : Fin 1) (i 1))

theorem actClassify_apply (a : (⟨2, ![100000, 128]⟩ : Shape).Idx → EReal) (sIn : (⟨2, ![100000, 1]⟩ : Shape).Idx → EReal)
    (b : (⟨2, ![1, 128]⟩ : Shape).Idx → EReal) (w : (⟨2, ![128, 4]⟩ : Shape).Idx → EReal)
    (bc : (⟨2, ![1, 4]⟩ : Shape).Idx → EReal) (r : Fin 100000) (c : Fin 4) :
    actClassify a sIn b w bc (ix2 r c)
      = (∑ k : Fin 128, act a sIn b r k * w (ix2 k c)) + bc (ix2 (0 : Fin 1) c) := rfl

end Cert.Spec

end
-- ==== Proof.Region0.lean ====
/-
  The first pallas_call, read as a value: whatever the arrays hold when the call is entered, the array it writes
  ends holding, at row r and column c, the sum over k of (x(r,k) · s(r)) · w(k,c), where x, s and w are the contents
  of its three input arrays at entry.

  The call walks the 100000 rows in 50 blocks of 2000. At block t the body multiplies each of the 2000 rows it
  loaded by that row's scale factor and takes the product with the whole 128 × 128 weight matrix; row p of block t is
  row 2000·t + p of the array, so what block t writes back is rows 2000·t … 2000·t + 1999 of the whole-array function,
  and the 50 blocks cover every row.
-/
import proofs.«130394_j56942676410567_1_alg».proof.Proof.Gen.KernelIdeal.Frame
import proofs.«130394_j56942676410567_1_alg».proof.Proof.LibDot
import proofs.«130394_j56942676410567_1_alg».proof.Proof.Spec
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

theorem origin2 : (![0, 0] : Fin 2 → Nat) = fun _ => 0 := funext fun a => by fin_cases a <;> rfl

/-- The body's product at row p, column q of the block: the scaled row against the weight column. -/
theorem body_apply (x0 : Vec Ideal S2000x128 .f32) (x1 : Vec Ideal S2000x1 .f32) (x2 : Vec Ideal S128x128 .f32)
    (p : Fin 2000) (q : Fin 128) :
    k0_pay1 (F := Ideal) x0 x1 x2 (ix2 p q)
      = ∑ k : Fin 128, (x0 (ix2 p k) * x1 (ix2 p (0 : Fin 1))) * x2 (ix2 k q) := by
  unfold k0_pay1
  refine (Cert.LibDot.matmul_10_zero_apply dot_S2000x128_S128x128_S2000x128_1_0_0_1_n_n rfl rfl rfl rfl rfl rfl none _ _ p q).trans ?_
  refine Finset.sum_congr rfl fun k _ => ?_
  have e : broadcastTo S2000x128 (shapeCast S2000x1 x1 shapeCasts_S2000x1_S2000x1) broadcasts_S2000x1_S2000x128 (ix2 p k)
      = x1 (ix2 p (0 : Fin 1)) :=
    (broadcastTo_apply _ _ (ix2 p k) (ix2 p (0 : Fin 1))
      (fun a => by match a with | ⟨0, _⟩ => rfl | ⟨1, _⟩ => rfl)).trans (congrFun (shapeCast_self x1 _) _)
  show (x0 (ix2 p k) * broadcastTo S2000x128 (shapeCast S2000x1 x1 shapeCasts_S2000x1_S2000x1) broadcasts_S2000x1_S2000x128 (ix2 p k))
      * x2 (ix2 k q) = _
  rw [e]

/-- The body's result at an entry of the block is the whole-array function at the array entry the block entry sits
    on, once each loaded block is known to be the matching part of its array. -/
theorem body_eq_spec (x : S100000x128.Idx → EReal) (s : S100000x1.Idx → EReal) (w : S128x128.Idx → EReal)
    (x0 : Vec Ideal S2000x128 .f32) (x1 : Vec Ideal S2000x1 .f32) (x2 : Vec Ideal S128x128 .f32)
    (j : S2000x128.Idx) (i : S100000x128.Idx) (hq : (i 1).val = (j 1).val)
    (h0 : ∀ k : Fin 128, x0 (ix2 (j 0) k) = x (ix2 (i 0) k))
    (h1 : x1 (ix2 (j 0) (0 : Fin 1)) = s (ix2 (i 0) (0 : Fin 1)))
    (h2 : x2 = w) :
    k0_pay1 (F := Ideal) x0 x1 x2 j = Cert.Spec.scaledProj x s w i := by
  obtain ⟨p, q, rfl⟩ : ∃ (p : Fin 2000) (q : Fin 128), j = ix2 p q := ⟨j 0, j 1, eq_ix2 j⟩
  obtain ⟨r, c, rfl⟩ : ∃ (r : Fin 100000) (c : Fin 128), i = ix2 r c := ⟨i 0, i 1, eq_ix2 i⟩
  have hc : c = q := Fin.ext hq
  subst hc h2
  rw [body_apply, Cert.Spec.scaledProj_apply]
  refine Finset.sum_congr rfl fun k _ => ?_
  rw [h0 k, h1]

/-- The index maps over the 50 points: the row-blocked windows sit at block t, the weight window at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the whole-array function of the three input arrays as entered. -/
theorem flushed_eq (c : Dev nD) (t : Fin cfg0.N) :
    (dat0 (F := Ideal) V c).flushed 3 t
      = ((cfg0.win 3).blk t).view.read (Elt Ideal) (Cert.Spec.scaledProj (V c main_arg0) (V c main_v11) (V c main_arg3)) := by
  show (cfg0.win 3).cut (grid0.coords t) ((dat0 (F := Ideal) V c).after 3 t) = _
  rw [after0_3]
  unfold out0_3
  rw [View.canon_unit_zero origin2]
  simp only [View.ld_unit_zero (S := S2000x128) origin2, View.ld_unit_zero (S := S2000x1) origin2,
    View.ld_unit_zero (S := S128x128) origin2]
  obtain ⟨a0, a1, b0, b1, c0, c1, d0, d1⟩ := idx_facts t
  funext j
  refine body_eq_spec (V c main_arg0) (V c main_v11) (V c main_arg3) (iblk0 V c 0 t) (iblk0 V c 1 t) (iblk0 V c 2 t) j
    (((cfg0.win 3).blk t).view.emb j) ?_ ?_ ?_ ?_
  · show win0_3.index t (1 : Fin 2) * 128 + 1 * (j 1).val = (j 1).val
    omega
  · intro k
    show V c main_arg0 (((cfg0.win 0).blk t).view.emb (ix2 (j 0) k)) = V c main_arg0 (ix2 ((((cfg0.win 3).blk t).view.emb j) 0) k)
    have h : ((cfg0.win 0).blk t).view.emb (ix2 (j 0) k) = ix2 ((((cfg0.win 3).blk t).view.emb j) 0) k := by
      funext a; apply Fin.ext
      match a with
      | ⟨0, _⟩ => show win0_0.index t (0 : Fin 2) * 2000 + 1 * (j 0).val = win0_3.index t (0 : Fin 2) * 2000 + 1 * (j 0).val; omega
      | ⟨1, _⟩ => show win0_0.index t (1 : Fin 2) * 128 + 1 * k.val = k.val; omega
    exact congrArg (V c main_arg0) h
  · show V c main_v11 (((cfg0.win 1).blk t).view.emb (ix2 (j 0) (0 : Fin 1))) = V c main_v11 (ix2 ((((cfg0.win 3).blk t).view.emb j) 0) (0 : Fin 1))
    have h : ((cfg0.win 1).blk t).view.emb (ix2 (j 0) (0 : Fin 1)) = ix2 ((((cfg0.win 3).blk t).view.emb j) 0) (0 : Fin 1) := by
      funext a; apply Fin.ext
      match a with
      | ⟨0, _⟩ => show win0_1.index t (0 : Fin 2) * 2000 + 1 * (j 0).val = win0_3.index t (0 : Fin 2) * 2000 + 1 * (j 0).val; omega
      | ⟨1, _⟩ => show win0_1.index t (1 : Fin 2) * 1 + 1 * 0 = 0; omega
    exact congrArg (V c main_v11) h
  · funext y
    show V c main_arg3 (((cfg0.win 2).blk t).view.emb y) = V c main_arg3 y
    have h : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 128 + 1 * (y 1).val = (y 1).val; omega
    rw [h]

/-- An array entry is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v18).slice (win0_3.rect t)).set ↔ _
  rw [View.set_slice_whole, Rect.mem_set_unit]
  exact Iff.rfl

/-- Every entry of the array is in the block of the point its row falls in. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  refine ⟨⟨(i 0).val / 2000, by omega⟩, flush0_3 _, ?_⟩
  obtain ⟨-, -, -, -, -, -, d0, d1⟩ := idx_facts ⟨(i 0).val / 2000, by omega⟩
  rw [mem_blk]
  intro a
  match a with
  | ⟨0, _⟩ =>
    show win0_3.index _ (0 : Fin 2) * 2000 ≤ (i 0).val ∧ (i 0).val < win0_3.index _ (0 : Fin 2) * 2000 + 2000
    rw [d0]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [d1]; omega

/-- The array the call writes, after the call: the whole-array function of the input arrays as entered. -/
theorem value (c : Dev nD) :
    (dat0 (F := Ideal) V c).arrAt 3 cfg0.N = Cert.Spec.scaledProj (V c main_arg0) (V c main_v11) (V c main_arg3) :=
  (dat0 (F := Ideal) V c).arrAt_eq_of_cover 3 _ (fun t _ => flushed_eq V c t) cover

end Cert.KernelIdeal.Region0

end
-- ==== Proof.Region1.lean ====
/-
  The second pallas_call, read as a value: whatever the arrays hold when the call is entered, the array it writes ends
  holding, at row r and column c, the sum over k of (act(r,k) · sOut(r)) · w(k,c), where
  act(r,k) = max (a(r,k) · sIn(r) + b(k)) 0 and a, sIn, b, sOut, w are the contents of its five input arrays at entry.

  As in the first call the 100000 rows are walked in 50 blocks of 2000; the bias row and the weight matrix are the
  same whole arrays at every block, and row p of block t is row 2000·t + p of each row-blocked array.
-/
import proofs.«130394_j56942676410567_1_alg».proof.Proof.Gen.KernelIdeal.Frame
import proofs.«130394_j56942676410567_1_alg».proof.Proof.LibDot
import proofs.«130394_j56942676410567_1_alg».proof.Proof.Spec
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

theorem origin2 : (![0, 0] : Fin 2 → Nat) = fun _ => 0 := funext fun a => by fin_cases a <;> rfl

/-- A column of per-row factors spread over the 128 columns reads, at row p, the factor of row p. -/
theorem col_spread (x : Vec Ideal S2000x1 .f32) (p : Fin 2000) (k : Fin 128) :
    broadcastTo S2000x128 (shapeCast S2000x1 x shapeCasts_S2000x1_S2000x1) broadcasts_S2000x1_S2000x128 (ix2 p k)
      = x (ix2 p (0 : Fin 1)) :=
  (broadcastTo_apply _ _ (ix2 p k) (ix2 p (0 : Fin 1))
    (fun a => by match a with | ⟨0, _⟩ => rfl | ⟨1, _⟩ => rfl)).trans (congrFun (shapeCast_self x _) _)

/-- A row of per-column terms spread over the 2000 rows reads, at column k, the term of column k. -/
theorem row_spread (x : Vec Ideal S1x128 .f32) (p : Fin 2000) (k : Fin 128) :
    broadcastTo S2000x128 (shapeCast S1x128 x shapeCasts_S1x128_S1x128) broadcasts_S1x128_S2000x128 (ix2 p k)
      = x (ix2 (0 : Fin 1) k) :=
  (broadcastTo_apply _ _ (ix2 p k) (ix2 (0 : Fin 1) k)
    (fun a => by match a with | ⟨0, _⟩ => rfl | ⟨1, _⟩ => rfl)).trans (congrFun (shapeCast_self x _) _)

/-- The body's product at row p, column q of the block: the activated, rescaled row against the weight column. -/
theorem body_apply (x0 : Vec Ideal S2000x128 .f32) (x1 : Vec Ideal S2000x1 .f32) (x2 : Vec Ideal S1x128 .f32)
    (x3 : Vec Ideal S2000x1 .f32) (x4 : Vec Ideal S128x128 .f32) (p : Fin 2000) (q : Fin 128) :
    k1_pay1 (F := Ideal) x0 x1 x2 x3 x4 (ix2 p q)
      = ∑ k : Fin 128, (max (x0 (ix2 p k) * x1 (ix2 p (0 : Fin 1)) + x2 (ix2 (0 : Fin 1) k)) Cert.Spec.zero32
          * x3 (ix2 p (0 : Fin 1))) * x4 (ix2 k q) := by
  unfold k1_pay1
  refine (Cert.LibDot.matmul_10_zero_apply dot_S2000x128_S128x128_S2000x128_1_0_0_1_n_n rfl rfl rfl rfl rfl rfl none _ _ p q).trans ?_
  refine Finset.sum_congr rfl fun k _ => ?_
  show (max ((shapeCast S2000x128 x0 shapeCasts_S2000x128_S2000x128 (ix2 p k)
              * broadcastTo S2000x128 (shapeCast S2000x1 x1 shapeCasts_S2000x1_S2000x1) broadcasts_S2000x1_S2000x128 (ix2 p k))
            + broadcastTo S2000x128 (shapeCast S1x128 x2 shapeCasts_S1x128_S1x128) broadcasts_S1x128_S2000x128 (ix2 p k))
          Cert.Spec.zero32
        * broadcastTo S2000x128 (shapeCast S2000x1 x3 shapeCasts_S2000x1_S2000x1) broadcasts_S2000x1_S2000x128 (ix2 p k))
      * x4 (ix2 k q) = _
  rw [col_spread x1 p k, col_spread x3 p k, row_spread x2 p k, shapeCast_self]

/-- The body's result at an entry of the block is the whole-array function at the array entry the block entry sits
    on, once each loaded block is known to be the matching part of its array. -/
theorem body_eq_spec (a : S100000x128.Idx → EReal) (sIn : S100000x1.Idx → EReal) (b : S1x128.Idx → EReal)
    (sOut : S100000x1.Idx → EReal) (w : S128x128.Idx → EReal)
    (x0 : Vec Ideal S2000x128 .f32) (x1 : Vec Ideal S2000x1 .f32) (x2 : Vec Ideal S1x128 .f32)
    (x3 : Vec Ideal S2000x1 .f32) (x4 : Vec Ideal S128x128 .f32)
    (j : S2000x128.Idx) (i : S100000x128.Idx) (hq : (i 1).val = (j 1).val)
    (h0 : ∀ k : Fin 128, x0 (ix2 (j 0) k) = a (ix2 (i 0) k))
    (h1 : x1 (ix2 (j 0) (0 : Fin 1)) = sIn (ix2 (i 0) (0 : Fin 1)))
    (h2 : x2 = b)
    (h3 : x3 (ix2 (j 0) (0 : Fin 1)) = sOut (ix2 (i 0) (0 : Fin 1)))
    (h4 : x4 = w) :
    k1_pay1 (F := Ideal) x0 x1 x2 x3 x4 j = Cert.Spec.actScaledProj a sIn b sOut w i := by
  obtain ⟨p, q, rfl⟩ : ∃ (p : Fin 2000) (q : Fin 128), j = ix2 p q := ⟨j 0, j 1, eq_ix2 j⟩
  obtain ⟨r, c, rfl⟩ : ∃ (r : Fin 100000) (c : Fin 128), i = ix2 r c := ⟨i 0, i 1, eq_ix2 i⟩
  have hc : c = q := Fin.ext hq
  subst hc h2 h4
  rw [body_apply, Cert.Spec.actScaledProj_apply]
  refine Finset.sum_congr rfl fun k _ => ?_
  unfold Cert.Spec.act
  rw [h0 k, h1, h3]

/-- The index maps over the 50 points: the row-blocked windows sit at block t, the bias and the weights at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point t writes back is block t of the whole-array function of the five input arrays as entered. -/
theorem flushed_eq (c : Dev nD) (t : Fin cfg1.N) :
    (dat1 (F := Ideal) V c).flushed 5 t
      = ((cfg1.win 5).blk t).view.read (Elt Ideal)
          (Cert.Spec.actScaledProj (V c main_v28) (V c main_v14) (V c main_v15) (V c main_v11) (V c main_arg5)) := by
  show (cfg1.win 5).cut (grid1.coords t) ((dat1 (F := Ideal) V c).after 5 t) = _
  rw [after1_5]
  unfold out1_5
  rw [View.canon_unit_zero origin2]
  simp only [View.ld_unit_zero (S := S2000x128) origin2, View.ld_unit_zero (S := S2000x1) origin2,
    View.ld_unit_zero (S := S1x128) origin2, View.ld_unit_zero (S := S128x128) origin2]
  obtain ⟨a0, a1, b0, b1, c0, c1, d0, d1, e0, e1, f0, f1⟩ := idx_facts t
  funext j
  refine body_eq_spec (V c main_v28) (V c main_v14) (V c main_v15) (V c main_v11) (V c main_arg5)
    (iblk1 V c 0 t) (iblk1 V c 1 t) (iblk1 V c 2 t) (iblk1 V c 3 t) (iblk1 V c 4 t) j
    (((cfg1.win 5).blk t).view.emb j) ?_ ?_ ?_ ?_ ?_ ?_
  · show win1_5.index t (1 : Fin 2) * 128 + 1 * (j 1).val = (j 1).val
    omega
  · intro k
    show V c main_v28 (((cfg1.win 0).blk t).view.emb (ix2 (j 0) k)) = V c main_v28 (ix2 ((((cfg1.win 5).blk t).view.emb j) 0) k)
    have h : ((cfg1.win 0).blk t).view.emb (ix2 (j 0) k) = ix2 ((((cfg1.win 5).blk t).view.emb j) 0) k := by
      funext a; apply Fin.ext
      match a with
      | ⟨0, _⟩ => show win1_0.index t (0 : Fin 2) * 2000 + 1 * (j 0).val = win1_5.index t (0 : Fin 2) * 2000 + 1 * (j 0).val; omega
      | ⟨1, _⟩ => show win1_0.index t (1 : Fin 2) * 128 + 1 * k.val = k.val; omega
    exact congrArg (V c main_v28) h
  · show V c main_v14 (((cfg1.win 1).blk t).view.emb (ix2 (j 0) (0 : Fin 1))) = V c main_v14 (ix2 ((((cfg1.win 5).blk t).view.emb j) 0) (0 : Fin 1))
    have h : ((cfg1.win 1).blk t).view.emb (ix2 (j 0) (0 : Fin 1)) = ix2 ((((cfg1.win 5).blk t).view.emb j) 0) (0 : Fin 1) := by
      funext a; apply Fin.ext
      match a with
      | ⟨0, _⟩ => show win1_1.index t (0 : Fin 2) * 2000 + 1 * (j 0).val = win1_5.index t (0 : Fin 2) * 2000 + 1 * (j 0).val; omega
      | ⟨1, _⟩ => show win1_1.index t (1 : Fin 2) * 1 + 1 * 0 = 0; omega
    exact congrArg (V c main_v14) h
  · funext y
    show V c main_v15 (((cfg1.win 2).blk t).view.emb y) = V c main_v15 y
    have h : ((cfg1.win 2).blk t).view.emb y = y := by
      funext a; apply Fin.ext
      match a with
      | ⟨0, _⟩ => show win1_2.index t (0 : Fin 2) * 1 + 1 * (y 0).val = (y 0).val; omega
      | ⟨1, _⟩ => show win1_2.index t (1 : Fin 2) * 128 + 1 * (y 1).val = (y 1).val; omega
    exact congrArg (V c main_v15) h
  · show V c main_v11 (((cfg1.win 3).blk t).view.emb (ix2 (j 0) (0 : Fin 1))) = V c main_v11 (ix2 ((((cfg1.win 5).blk t).view.emb j) 0) (0 : Fin 1))
    have h : ((cfg1.win 3).blk t).view.emb (ix2 (j 0) (0 : Fin 1)) = ix2 ((((cfg1.win 5).blk t).view.emb j) 0) (0 : Fin 1) := by
      funext a; apply Fin.ext
      match a with
      | ⟨0, _⟩ => show win1_3.index t (0 : Fin 2) * 2000 + 1 * (j 0).val = win1_5.index t (0 : Fin 2) * 2000 + 1 * (j 0).val; omega
      | ⟨1, _⟩ => show win1_3.index t (1 : Fin 2) * 1 + 1 * 0 = 0; omega
    exact congrArg (V c main_v11) h
  · funext y
    show V c main_arg5 (((cfg1.win 4).blk t).view.emb y) = V c main_arg5 y
    have h : ((cfg1.win 4).blk t).view.emb y = y := by
      funext a; apply Fin.ext
      match a with
      | ⟨0, _⟩ => show win1_4.index t (0 : Fin 2) * 128 + 1 * (y 0).val = (y 0).val; omega
      | ⟨1, _⟩ => show win1_4.index t (1 : Fin 2) * 128 + 1 * (y 1).val = (y 1).val; omega
    exact congrArg (V c main_arg5) h

/-- An array entry is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v29).slice (win1_5.rect t)).set ↔ _
  rw [View.set_slice_whole, Rect.mem_set_unit]
  exact Iff.rfl

/-- Every entry of the array is in the block of the point its row falls in. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by omega⟩, flush1_5 _, ?_⟩
  obtain ⟨-, -, -, -, -, -, -, -, -, -, f0, f1⟩ := idx_facts ⟨(i 0).val / 2000, by omega⟩
  rw [mem_blk]
  intro a
  match a with
  | ⟨0, _⟩ =>
    show win1_5.index _ (0 : Fin 2) * 2000 ≤ (i 0).val ∧ (i 0).val < win1_5.index _ (0 : Fin 2) * 2000 + 2000
    rw [f0]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [f1]; omega

/-- The array the call writes, after the call: the whole-array function of the input arrays as entered. -/
theorem value (c : Dev nD) :
    (dat1 (F := Ideal) V c).arrAt 5 cfg1.N
      = Cert.Spec.actScaledProj (V c main_v28) (V c main_v14) (V c main_v15) (V c main_v11) (V c main_arg5) :=
  (dat1 (F := Ideal) V c).arrAt_eq_of_cover 5 _ (fun t _ => flushed_eq V c t) cover

end Cert.KernelIdeal.Region1

end
-- ==== Proof.Region2.lean ====
/-
  The third pallas_call, read as a value: whatever the arrays hold when the call is entered, the array it writes ends
  holding, at row r and column c (of 4), the sum over k of act(r,k) · w(k,c), plus bc(c), where
  act(r,k) = max (a(r,k) · sIn(r) + b(k)) 0 and a, sIn, b, w, bc are the contents of its five input arrays at entry.

  The 100000 rows are walked in 50 blocks of 2000; the bias rows and the 128 × 4 weight matrix are the same whole
  arrays at every block, and row p of block t is row 2000·t + p of each row-blocked array.
-/
import proofs.«130394_j56942676410567_1_alg».proof.Proof.Gen.KernelIdeal.Frame
import proofs.«130394_j56942676410567_1_alg».proof.Proof.LibDot
import proofs.«130394_j56942676410567_1_alg».proof.Proof.Spec
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

theorem origin2 : (![0, 0] : Fin 2 → Nat) = fun _ => 0 := funext fun a => by fin_cases a <;> rfl

/-- A column of per-row factors spread over the 128 columns reads, at row p, the factor of row p. -/
theorem col_spread (x : Vec Ideal S2000x1 .f32) (p : Fin 2000) (k : Fin 128) :
    broadcastTo S2000x128 (shapeCast S2000x1 x shapeCasts_S2000x1_S2000x1) broadcasts_S2000x1_S2000x128 (ix2 p k)
      = x (ix2 p (0 : Fin 1)) :=
  (broadcastTo_apply _ _ (ix2 p k) (ix2 p (0 : Fin 1))
    (fun a => by match a with | ⟨0, _⟩ => rfl | ⟨1, _⟩ => rfl)).trans (congrFun (shapeCast_self x _) _)

/-- A row of 128 per-column terms spread over the 2000 rows reads, at column k, the term of column k. -/
theorem row_spread (x : Vec Ideal S1x128 .f32) (p : Fin 2000) (k : Fin 128) :
    broadcastTo S2000x128 (shapeCast S1x128 x shapeCasts_S1x128_S1x128) broadcasts_S1x128_S2000x128 (ix2 p k)
      = x (ix2 (0 : Fin 1) k) :=
  (broadcastTo_apply _ _ (ix2 p k) (ix2 (0 : Fin 1) k)
    (fun a => by match a with | ⟨0, _⟩ => rfl | ⟨1, _⟩ => rfl)).trans (congrFun (shapeCast_self x _) _)

/-- A row of 4 per-class terms spread over the 2000 rows reads, at class q, the term of class q. -/
theorem row_spread4 (x : Vec Ideal S1x4 .f32) (p : Fin 2000) (q : Fin 4) :
    broadcastTo S2000x4 (shapeCast S1x4 x shapeCasts_S1x4_S1x4) broadcasts_S1x4_S2000x4 (ix2 p q)
      = x (ix2 (0 : Fin 1) q) :=
  (broadcastTo_apply _ _ (ix2 p q) (ix2 (0 : Fin 1) q)
    (fun a => by match a with | ⟨0, _⟩ => rfl | ⟨1, _⟩ => rfl)).trans (congrFun (shapeCast_self x _) _)

/-- The body's result at row p, class q of the block: the activated row against the classifier's column, plus its bias. -/
theorem body_apply (x0 : Vec Ideal S2000x128 .f32) (x1 : Vec Ideal S2000x1 .f32) (x2 : Vec Ideal S1x128 .f32)
    (x3 : Vec Ideal S128x4 .f32) (x4 : Vec Ideal S1x4 .f32) (p : Fin 2000) (q : Fin 4) :
    k2_pay1 (F := Ideal) x0 x1 x2 x3 x4 (ix2 p q)
      = (∑ k : Fin 128, max (x0 (ix2 p k) * x1 (ix2 p (0 : Fin 1)) + x2 (ix2 (0 : Fin 1) k)) Cert.Spec.zero32
          * x3 (ix2 k q)) + x4 (ix2 (0 : Fin 1) q) := by
  unfold k2_pay1
  refine congrArg₂ (· + ·) ?_ (row_spread4 x4 p q)
  refine (Cert.LibDot.matmul_10_zero_apply dot_S2000x128_S128x4_S2000x4_1_0_0_1_n_n rfl rfl rfl rfl rfl rfl none _ _ p q).trans ?_
  refine Finset.sum_congr rfl fun k _ => ?_
  show max ((shapeCast S2000x128 x0 shapeCasts_S2000x128_S2000x128 (ix2 p k)
              * broadcastTo S2000x128 (shapeCast S2000x1 x1 shapeCasts_S2000x1_S2000x1) broadcasts_S2000x1_S2000x128 (ix2 p k))
            + broadcastTo S2000x128 (shapeCast S1x128 x2 shapeCasts_S1x128_S1x128) broadcasts_S1x128_S2000x128 (ix2 p k))
          Cert.Spec.zero32
      * x3 (ix2 k q) = _
  rw [col_spread x1 p k, row_spread x2 p k, shapeCast_self]

/-- The body's result at an entry of the block is the whole-array function at the array entry the block entry sits
    on, once each loaded block is known to be the matching part of its array. -/
theorem body_eq_spec (a : S100000x128.Idx → EReal) (sIn : S100000x1.Idx → EReal) (b : S1x128.Idx → EReal)
    (w : S128x4.Idx → EReal) (bc : S1x4.Idx → EReal)
    (x0 : Vec Ideal S2000x128 .f32) (x1 : Vec Ideal S2000x1 .f32) (x2 : Vec Ideal S1x128 .f32)
    (x3 : Vec Ideal S128x4 .f32) (x4 : Vec Ideal S1x4 .f32)
    (j : S2000x4.Idx) (i : S100000x4.Idx) (hq : (i 1).val = (j 1).val)
    (h0 : ∀ k : Fin 128, x0 (ix2 (j 0) k) = a (ix2 (i 0) k))
    (h1 : x1 (ix2 (j 0) (0 : Fin 1)) = sIn (ix2 (i 0) (0 : Fin 1)))
    (h2 : x2 = b) (h3 : x3 = w) (h4 : x4 = bc) :
    k2_pay1 (F := Ideal) x0 x1 x2 x3 x4 j = Cert.Spec.actClassify a sIn b w bc i := by
  obtain ⟨p, q, rfl⟩ : ∃ (p : Fin 2000) (q : Fin 4), j = ix2 p q := ⟨j 0, j 1, eq_ix2 j⟩
  obtain ⟨r, c, rfl⟩ : ∃ (r : Fin 100000) (c : Fin 4), i = ix2 r c := ⟨i 0, i 1, eq_ix2 i⟩
  have hc : c = q := Fin.ext hq
  subst hc h2 h3 h4
  rw [body_apply, Cert.Spec.actClassify_apply]
  refine congrArg (· + x4 (ix2 (0 : Fin 1) c)) (Finset.sum_congr rfl fun k _ => ?_)
  unfold Cert.Spec.act
  rw [h0 k, h1]

/-- The index maps over the 50 points: the row-blocked windows sit at block t, the biases and the weights at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- What point t writes back is block t of the whole-array function of the five input arrays as entered. -/
theorem flushed_eq (c : Dev nD) (t : Fin cfg2.N) :
    (dat2 (F := Ideal) V c).flushed 5 t
      = ((cfg2.win 5).blk t).view.read (Elt Ideal)
          (Cert.Spec.actClassify (V c main_v39) (V c main_v14) (V c main_v16) (V c main_arg7) (V c main_v17)) := by
  show (cfg2.win 5).cut (grid2.coords t) ((dat2 (F := Ideal) V c).after 5 t) = _
  rw [after2_5]
  unfold out2_5
  rw [View.canon_unit_zero origin2]
  simp only [View.ld_unit_zero (S := S2000x128) origin2, View.ld_unit_zero (S := S2000x1) origin2,
    View.ld_unit_zero (S := S1x128) origin2, View.ld_unit_zero (S := S128x4) origin2, View.ld_unit_zero (S := S1x4) origin2]
  obtain ⟨a0, a1, b0, b1, c0, c1, d0, d1, e0, e1, f0, f1⟩ := idx_facts t
  funext j
  refine body_eq_spec (V c main_v39) (V c main_v14) (V c main_v16) (V c main_arg7) (V c main_v17)
    (iblk2 V c 0 t) (iblk2 V c 1 t) (iblk2 V c 2 t) (iblk2 V c 3 t) (iblk2 V c 4 t) j
    (((cfg2.win 5).blk t).view.emb j) ?_ ?_ ?_ ?_ ?_ ?_
  · show win2_5.index t (1 : Fin 2) * 4 + 1 * (j 1).val = (j 1).val
    omega
  · intro k
    show V c main_v39 (((cfg2.win 0).blk t).view.emb (ix2 (j 0) k)) = V c main_v39 (ix2 ((((cfg2.win 5).blk t).view.emb j) 0) k)
    have h : ((cfg2.win 0).blk t).view.emb (ix2 (j 0) k) = ix2 ((((cfg2.win 5).blk t).view.emb j) 0) k := by
      funext a; apply Fin.ext
      match a with
      | ⟨0, _⟩ => show win2_0.index t (0 : Fin 2) * 2000 + 1 * (j 0).val = win2_5.index t (0 : Fin 2) * 2000 + 1 * (j 0).val; omega
      | ⟨1, _⟩ => show win2_0.index t (1 : Fin 2) * 128 + 1 * k.val = k.val; omega
    exact congrArg (V c main_v39) h
  · show V c main_v14 (((cfg2.win 1).blk t).view.emb (ix2 (j 0) (0 : Fin 1))) = V c main_v14 (ix2 ((((cfg2.win 5).blk t).view.emb j) 0) (0 : Fin 1))
    have h : ((cfg2.win 1).blk t).view.emb (ix2 (j 0) (0 : Fin 1)) = ix2 ((((cfg2.win 5).blk t).view.emb j) 0) (0 : Fin 1) := by
      funext a; apply Fin.ext
      match a with
      | ⟨0, _⟩ => show win2_1.index t (0 : Fin 2) * 2000 + 1 * (j 0).val = win2_5.index t (0 : Fin 2) * 2000 + 1 * (j 0).val; omega
      | ⟨1, _⟩ => show win2_1.index t (1 : Fin 2) * 1 + 1 * 0 = 0; omega
    exact congrArg (V c main_v14) h
  · funext y
    show V c main_v16 (((cfg2.win 2).blk t).view.emb y) = V c main_v16 y
    have h : ((cfg2.win 2).blk t).view.emb y = y := by
      funext a; apply Fin.ext
      match a with
      | ⟨0, _⟩ => show win2_2.index t (0 : Fin 2) * 1 + 1 * (y 0).val = (y 0).val; omega
      | ⟨1, _⟩ => show win2_2.index t (1 : Fin 2) * 128 + 1 * (y 1).val = (y 1).val; omega
    exact congrArg (V c main_v16) h
  · funext y
    show V c main_arg7 (((cfg2.win 3).blk t).view.emb y) = V c main_arg7 y
    have h : ((cfg2.win 3).blk t).view.emb y = y := by
      funext a; apply Fin.ext
      match a with
      | ⟨0, _⟩ => show win2_3.index t (0 : Fin 2) * 128 + 1 * (y 0).val = (y 0).val; omega
      | ⟨1, _⟩ => show win2_3.index t (1 : Fin 2) * 4 + 1 * (y 1).val = (y 1).val; omega
    exact congrArg (V c main_arg7) h
  · funext y
    show V c main_v17 (((cfg2.win 4).blk t).view.emb y) = V c main_v17 y
    have h : ((cfg2.win 4).blk t).view.emb y = y := by
      funext a; apply Fin.ext
      match a with
      | ⟨0, _⟩ => show win2_4.index t (0 : Fin 2) * 1 + 1 * (y 0).val = (y 0).val; omega
      | ⟨1, _⟩ => show win2_4.index t (1 : Fin 2) * 4 + 1 * (y 1).val = (y 1).val; omega
    exact congrArg (V c main_v17) h

/-- An array entry is in point t's block iff each coordinate is in the block's range on its axis. -/
theorem mem_blk (t : Fin cfg2.N) (i : S100000x4.Idx) :
    i ∈ ((cfg2.win 5).blk t).view.set ↔ ∀ a : Fin 2, win2_5.index t a * S2000x4.size a ≤ (i a).val
      ∧ (i a).val < win2_5.index t a * S2000x4.size a + S2000x4.size a := by
  show i ∈ ((View.whole main_v40).slice (win2_5.rect t)).set ↔ _
  rw [View.set_slice_whole, Rect.mem_set_unit]
  exact Iff.rfl

/-- Every entry of the array is in the block of the point its row falls in. -/
theorem cover (i : S100000x4.Idx) :
    ∃ t : Fin cfg2.N, (cfg2.win 5).flush t = true ∧ i ∈ ((cfg2.win 5).blk t).view.set := by
  have hi0 : (i 0).val < 100000 := (i 0).isLt
  have hi1 : (i 1).val < 4 := (i 1).isLt
  have hN : cfg2.N = 50 := N_2
  refine ⟨⟨(i 0).val / 2000, by omega⟩, flush2_5 _, ?_⟩
  obtain ⟨-, -, -, -, -, -, -, -, -, -, f0, f1⟩ := idx_facts ⟨(i 0).val / 2000, by omega⟩
  rw [mem_blk]
  intro a
  match a with
  | ⟨0, _⟩ =>
    show win2_5.index _ (0 : Fin 2) * 2000 ≤ (i 0).val ∧ (i 0).val < win2_5.index _ (0 : Fin 2) * 2000 + 2000
    rw [f0]; show (i 0).val / 2000 * 2000 ≤ (i 0).val ∧ (i 0).val < (i 0).val / 2000 * 2000 + 2000; omega
  | ⟨1, _⟩ =>
    show win2_5.index _ (1 : Fin 2) * 4 ≤ (i 1).val ∧ (i 1).val < win2_5.index _ (1 : Fin 2) * 4 + 4
    rw [f1]; omega

/-- The array the call writes, after the call: the whole-array function of the input arrays as entered. -/
theorem value (c : Dev nD) :
    (dat2 (F := Ideal) V c).arrAt 5 cfg2.N
      = Cert.Spec.actClassify (V c main_v39) (V c main_v14) (V c main_v16) (V c main_arg7) (V c main_v17) :=
  (dat2 (F := Ideal) V c).arrAt_eq_of_cover 5 _ (fun t _ => flushed_eq V c t) cover

end Cert.KernelIdeal.Region2

end
-- ==== Proof.RefValue.lean ====
/-
  The reference's three matrix products, read entry by entry, are the three dense stage functions of the arrays they
  are applied to: the host's product of a row-scaled array with a weight matrix is, at row r and column c, the sum over k
  of (x(r,k) · s(r)) · w(k,c); the host's maximum with the zero array after the scale and the bias is the activation;
  and the classifier's product plus its broadcast bias is the last stage. The scatter and gather results the products
  are applied to stay unopened: they are the same functions on the kernel's side.
-/
import proofs.«130394_j56942676410567_1_alg».proof.Proof.RefRead
import proofs.«130394_j56942676410567_1_alg».proof.Proof.Spec
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-! ## Layer 1's projection -/

/-- The first product: the input rows, each scaled by its node's outgoing-degree factor, against the first weights. -/
theorem proj1 (x0 : (⟨S100000x128, .f32⟩ : BufTy).Contents (Elt Ideal)) (x1 : (⟨S1600000, .i32⟩ : BufTy).Contents (Elt Ideal))
    (x3 : (⟨S128x128, .f32⟩ : BufTy).Contents (Elt Ideal)) :
    val_main_v14 (F := Ideal) x0 x1 x3 = Cert.Spec.scaledProj x0 (val_main_v11 (F := Ideal) x1) x3 := by
  funext i
  obtain ⟨r, c, rfl⟩ : ∃ (r : Fin 100000) (c : Fin 128), i = ix2 r c := ⟨i 0, i 1, eq_ix2 i⟩
  rw [val_main_v14_apply, Cert.Spec.scaledProj_apply]
  refine Finset.sum_congr rfl fun k _ => ?_
  have el : lidx_main_v14 (ix2 r c) k = ix2 r k :=
    funext fun a => Fin.ext (by match a with | ⟨0, _⟩ => rfl | ⟨1, _⟩ => rfl)
  have er : ridx_main_v14 (ix2 r c) k = ix2 k c :=
    funext fun a => Fin.ext (by match a with | ⟨0, _⟩ => rfl | ⟨1, _⟩ => rfl)
  have em : idx_main_v12 (ix2 r k) = ix2 r (0 : Fin 1) :=
    funext fun a => Fin.ext (by match a with | ⟨0, _⟩ => rfl | ⟨1, _⟩ => rfl)
  rw [el, er, val_main_v13_apply, val_main_v12_apply, em]
  rfl

/-! ## Layer 1's activation and layer 2's projection -/

/-- The first layer's activated entry: aggregate times incoming-degree factor, plus bias, against zero. -/
theorem act1 (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (r : Fin 100000) (k : Fin 128) :
    val_main_v33 (F := Ideal) x0 x1 x2 x3 x4 (ix2 r k)
      = Cert.Spec.act (val_main_v24 (F := Ideal) x0 x1 x2 x3) (val_main_v27 (F := Ideal) x2) (val_main_v30 (F := Ideal) x4) r k := by
  have e28 : idx_main_v28 (ix2 r k) = ix2 r (0 : Fin 1) :=
    funext fun a => Fin.ext (by match a with | ⟨0, _⟩ => rfl | ⟨1, _⟩ => rfl)
  have e31 : idx_main_v31 (ix2 r k) = ix2 (0 : Fin 1) k :=
    funext fun a => Fin.ext (by match a with | ⟨0, _⟩ => rfl | ⟨1, _⟩ => rfl)
  rw [val_main_v33_apply, val_main_v32_apply, val_main_v29_apply, val_main_v28_apply, val_main_v31_apply,
    val_main_call2_v0_apply, val_main_call2_cst_apply, e28, e31]
  rfl

/-- The second product: the activated rows, each scaled by its node's outgoing-degree factor, against the second
    weights. -/
theorem proj2 (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v48 (F := Ideal) x0 x1 x2 x3 x4 x5
      = Cert.Spec.actScaledProj (val_main_v24 (F := Ideal) x0 x1 x2 x3) (val_main_v27 (F := Ideal) x2)
          (val_main_v30 (F := Ideal) x4) (val_main_v45 (F := Ideal) x1) x5 := by
  funext i
  obtain ⟨r, c, rfl⟩ : ∃ (r : Fin 100000) (c : Fin 128), i = ix2 r c := ⟨i 0, i 1, eq_ix2 i⟩
  rw [val_main_v48_apply, Cert.Spec.actScaledProj_apply]
  refine Finset.sum_congr rfl fun k _ => ?_
  have el : lidx_main_v48 (ix2 r c) k = ix2 r k :=
    funext fun a => Fin.ext (by match a with | ⟨0, _⟩ => rfl | ⟨1, _⟩ => rfl)
  have er : ridx_main_v48 (ix2 r c) k = ix2 k c :=
    funext fun a => Fin.ext (by match a with | ⟨0, _⟩ => rfl | ⟨1, _⟩ => rfl)
  have em : idx_main_v46 (ix2 r k) = ix2 r (0 : Fin 1) :=
    funext fun a => Fin.ext (by match a with | ⟨0, _⟩ => rfl | ⟨1, _⟩ => rfl)
  rw [el, er, val_main_v47_apply, val_main_v46_apply, em, act1]
  rfl

/-! ## Layer 2's activation and the classifier -/

/-- The second layer's activated entry. -/
theorem act2 (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (r : Fin 100000) (k : Fin 128) :
    val_main_v67 (F := Ideal) x0 x1 x2 x3 x4 x5 x6 (ix2 r k)
      = Cert.Spec.act (val_main_v58 (F := Ideal) x0 x1 x2 x3 x4 x5) (val_main_v61 (F := Ideal) x2)
          (val_main_v64 (F := Ideal) x6) r k := by
  have e62 : idx_main_v62 (ix2 r k) = ix2 r (0 : Fin 1) :=
    funext fun a => Fin.ext (by match a with | ⟨0, _⟩ => rfl | ⟨1, _⟩ => rfl)
  have e65 : idx_main_v65 (ix2 r k) = ix2 (0 : Fin 1) k :=
    funext fun a => Fin.ext (by match a with | ⟨0, _⟩ => rfl | ⟨1, _⟩ => rfl)
  rw [val_main_v67_apply, val_main_v66_apply, val_main_v63_apply, val_main_v62_apply, val_main_v65_apply,
    val_main_call5_v0_apply, val_main_call5_cst_apply, e62, e65]
  rfl

/-- The classifier: the activated rows against the 128 × 4 weights, plus the class bias. -/
theorem classify (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x4, .f32⟩ : BufTy).Contents (Elt Ideal)) (x8 : (⟨S4, .f32⟩ : BufTy).Contents (Elt Ideal)) :
    val_main_v71 (F := Ideal) x0 x1 x2 x3 x4 x5 x6 x7 x8
      = Cert.Spec.actClassify (val_main_v58 (F := Ideal) x0 x1 x2 x3 x4 x5) (val_main_v61 (F := Ideal) x2)
          (val_main_v64 (F := Ideal) x6) x7 (val_main_v69 (F := Ideal) x8) := by
  funext i
  obtain ⟨r, c, rfl⟩ : ∃ (r : Fin 100000) (c : Fin 4), i = ix2 r c := ⟨i 0, i 1, eq_ix2 i⟩
  have e70 : idx_main_v70 (ix2 r c) = ix2 (0 : Fin 1) c :=
    funext fun a => Fin.ext (by match a with | ⟨0, _⟩ => rfl | ⟨1, _⟩ => rfl)
  rw [val_main_v71_apply, val_main_v70_apply, e70, val_main_v68_apply, Cert.Spec.actClassify_apply]
  refine congrArg (· + val_main_v69 (F := Ideal) x8 (ix2 (0 : Fin 1) c)) (Finset.sum_congr rfl fun k _ => ?_)
  have el : lidx_main_v68 (ix2 r c) k = ix2 r k :=
    funext fun a => Fin.ext (by match a with | ⟨0, _⟩ => rfl | ⟨1, _⟩ => rfl)
  have er : ridx_main_v68 (ix2 r c) k = ix2 k c :=
    funext fun a => Fin.ext (by match a with | ⟨0, _⟩ => rfl | ⟨1, _⟩ => rfl)
  rw [el, er, act2]

/-! ## One round of message passing, as one function of the array it is applied to

For every reading of the floats: the rows of `h` gathered along the edges' sources (a negative index wrapped by the
number of nodes first) and added up, per node, along the edges' targets, starting from the zero array. The reference
applies it twice, to its first and to its second product. -/

section AnyFloats

variable {F : FTy → Type} [FloatOps F]

/-- The rows of `h` sent along the edges and summed at their targets. -/
def aggregate (h : (⟨S100000x128, .f32⟩ : BufTy).Contents (Elt F)) (x1 x2 : (⟨S1600000, .i32⟩ : BufTy).Contents (Elt F)) : (⟨S100000x128, .f32⟩ : BufTy).Contents (Elt F) :=
  Host.scatterAdd scatter_S100000x128_S1600000x1_S1600000x128_1_0_0_1 (val_main_v22 (F := F)) (val_main_v23 (F := F) x2)
    (Host.gather gather_S100000x128_S1600000x1_S1600000x128_1_0_n_n_0_1_1128 h (val_main_v20 (F := F) x1))

/-- The first aggregate is that round applied to the first product. -/
theorem aggregate_first (x0 : (⟨S100000x128, .f32⟩ : BufTy).Contents (Elt F)) (x1 x2 : (⟨S1600000, .i32⟩ : BufTy).Contents (Elt F)) (x3 : (⟨S128x128, .f32⟩ : BufTy).Contents (Elt F)) :
    val_main_v24 (F := F) x0 x1 x2 x3 = aggregate (val_main_v14 (F := F) x0 x1 x3) x1 x2 := rfl

/-- The second aggregate is the same round applied to the second product. -/
theorem aggregate_second (x0 : (⟨S100000x128, .f32⟩ : BufTy).Contents (Elt F)) (x1 x2 : (⟨S1600000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F)) :
    val_main_v58 (F := F) x0 x1 x2 x3 x4 x5 = aggregate (val_main_v48 (F := F) x0 x1 x2 x3 x4 x5) x1 x2 := rfl

/-- The reference computes the outgoing-degree column a second time for its second layer: the same chain of host
    operations on the same edge list. -/
theorem out_column_again (x1 : (⟨S1600000, .i32⟩ : BufTy).Contents (Elt F)) : val_main_v45 (F := F) x1 = val_main_v11 (F := F) x1 := rfl

/-- Likewise the incoming-degree column. -/
theorem in_column_again (x2 : (⟨S1600000, .i32⟩ : BufTy).Contents (Elt F)) : val_main_v61 (F := F) x2 = val_main_v27 (F := F) x2 := rfl

end AnyFloats

end Cert.ReferenceIdeal.RefValue

end
-- ==== Proof.KernelValue.lean ====
/-
  The result array after the last pallas_call, walked back to the arrays @main was launched with.

  Each pallas_call leaves in its output array the dense stage function of its input arrays as it found them. Each input
  array is an argument, a degree-factor column or a bias row made before the first call (all unchanged since), or the
  aggregate the host made from the previous call's output by one round of message passing: the gather along the edges'
  sources and the scatter-add along their targets. That round is the same chain of host operations in the kernel's
  program and in the reference, whatever the floats denote, so it is compared once, as a function of the array it is
  applied to and of the two edge lists, and never opened. Stage by stage the kernel's buffer is then the reference's
  value of that stage of the launch arrays, down to the result.
-/
import proofs.«130394_j56942676410567_1_alg».proof.Proof.WalkKept
import proofs.«130394_j56942676410567_1_alg».proof.Proof.Region0
import proofs.«130394_j56942676410567_1_alg».proof.Proof.Region1
import proofs.«130394_j56942676410567_1_alg».proof.Proof.Region2
import proofs.«130394_j56942676410567_1_alg».proof.Proof.RefValue

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo
open Cert.ReferenceIdeal.Read
open Cert.ReferenceIdeal.RefValue (aggregate aggregate_first aggregate_second out_column_again in_column_again)

/-! ## One round of message passing in the kernel's program, for every reading of the floats -/

section AnyFloats

variable {F : FTy → Type} [FloatOps F]

/-- The host operations between the first and the second call leave in the second call's first input the round of
    message passing applied to the first call's output, whatever the buffers held before them. -/
theorem round_first (V : Valuation τ sig (Elt F)) :
    StableHlo.after hostOps1 V (Proc.devRef .tc main_v28)
      = aggregate (F := F) (V (Proc.devRef .tc main_v18)) (V (Proc.devRef .tc main_arg1)) (V (Proc.devRef .tc main_arg2)) := by
  after_results
  rfl

/-- Likewise between the second and the third call. -/
theorem round_second (V : Valuation τ sig (Elt F)) :
    StableHlo.after hostOps2 V (Proc.devRef .tc main_v39)
      = aggregate (F := F) (V (Proc.devRef .tc main_v29)) (V (Proc.devRef .tc main_arg1)) (V (Proc.devRef .tc main_arg2)) := by
  after_results
  rfl

end AnyFloats

/-! ## The stages, at the extended reals -/

variable (m : (ℓ : Loc nD τ sig) → Buf (Elt Ideal) ℓ) (ρ : Dev nD → PrngReg) (c : Dev nD)

/-- The first call's output: the reference's first product of the launch arrays. -/
theorem W6_v18 : W6 m ρ c (Proc.devRef .tc main_v18) = val_main_v14 (F := Ideal) (m ((c : Thread nD τ).loc main_arg0)) (m ((c : Thread nD τ).loc main_arg1)) (m ((c : Thread nD τ).loc main_arg3)) := by
  refine (W6_arr m ρ c 3).trans ((Cert.KernelIdeal.Region0.value (V5 m ρ) c).trans ?_)
  have e0 : V5 m ρ c main_arg0 = m ((c : Thread nD τ).loc main_arg0) := W5_arg0 m ρ c
  have e1 : V5 m ρ c main_v11 = val_main_v11 (F := Ideal) (m ((c : Thread nD τ).loc main_arg1)) := W5_v11 m ρ c
  have e3 : V5 m ρ c main_arg3 = m ((c : Thread nD τ).loc main_arg3) := W5_arg3 m ρ c
  rw [e0, e1, e3, Cert.ReferenceIdeal.RefValue.proj1]

/-- The first aggregate: the reference's, of the same product. -/
theorem W7_v28 : W7 m ρ c (Proc.devRef .tc main_v28) = val_main_v24 (F := Ideal) (m ((c : Thread nD τ).loc main_arg0)) (m ((c : Thread nD τ).loc main_arg1)) (m ((c : Thread nD τ).loc main_arg2)) (m ((c : Thread nD τ).loc main_arg3)) := by
  show StableHlo.after hostOps1 (W6 m ρ c) (Proc.devRef .tc main_v28) = _
  rw [round_first, W6_v18 m ρ c, W6_arg1 m ρ c, W6_arg2 m ρ c, aggregate_first]

/-- The second call's output: the reference's second product of the launch arrays. -/
theorem W8_v29 : W8 m ρ c (Proc.devRef .tc main_v29) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((Cert.KernelIdeal.Region1.value (V7 m ρ) c).trans ?_)
  have e0 : V7 m ρ c main_v28 = val_main_v24 (F := Ideal) (m ((c : Thread nD τ).loc main_arg0)) (m ((c : Thread nD τ).loc main_arg1)) (m ((c : Thread nD τ).loc main_arg2)) (m ((c : Thread nD τ).loc main_arg3)) := W7_v28 m ρ c
  have e1 : V7 m ρ c main_v14 = val_main_v27 (F := Ideal) (m ((c : Thread nD τ).loc main_arg2)) := W7_v14 m ρ c
  have e2 : V7 m ρ c main_v15 = val_main_v30 (F := Ideal) (m ((c : Thread nD τ).loc main_arg4)) := W7_v15 m ρ c
  have e3 : V7 m ρ c main_v11 = val_main_v11 (F := Ideal) (m ((c : Thread nD τ).loc main_arg1)) := W7_v11 m ρ c
  have e4 : V7 m ρ c main_arg5 = m ((c : Thread nD τ).loc main_arg5) := W7_arg5 m ρ c
  rw [e0, e1, e2, e3, e4, Cert.ReferenceIdeal.RefValue.proj2, out_column_again]

/-- The second aggregate: the reference's, of the same product. -/
theorem W9_v39 : W9 m ρ c (Proc.devRef .tc main_v39) = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W8 m ρ c) (Proc.devRef .tc main_v39) = _
  rw [round_second, W8_v29 m ρ c, W8_arg1 m ρ c, W8_arg2 m ρ c, aggregate_second]

/-- The result array: the reference's result of the launch arrays. -/
theorem W10_v40 : W10 m ρ c (Proc.devRef .tc main_v40) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ((Cert.KernelIdeal.Region2.value (V9 m ρ) c).trans ?_)
  have e0 : V9 m ρ c main_v39 = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := W9_v39 m ρ c
  have e1 : V9 m ρ c main_v14 = val_main_v27 (F := Ideal) (m ((c : Thread nD τ).loc main_arg2)) := W9_v14 m ρ c
  have e2 : V9 m ρ c main_v16 = val_main_v64 (F := Ideal) (m ((c : Thread nD τ).loc main_arg6)) := W9_v16 m ρ c
  have e3 : V9 m ρ c main_arg7 = m ((c : Thread nD τ).loc main_arg7) := W9_arg7 m ρ c
  have e4 : V9 m ρ c main_v17 = val_main_v69 (F := Ideal) (m ((c : Thread nD τ).loc main_arg8)) := W9_v17 m ρ c
  rw [e0, e1, e2, e3, e4, Cert.ReferenceIdeal.RefValue.classify, in_column_again]

end Cert.KernelIdeal.Walk

end
-- ==== Proof.lean ====
/-
  The kernel — three tiled pallas_calls around the host's degree computation and two rounds of message passing —
  against the plain two-layer graph convolution with a linear classifier.

  Frames. The two printed kernel programs run, fault-free, with their arguments unchanged: the generated frames. The
  reference is a host program; its generated run, with the result dropped, is its frame.

  The idealization rewrote nothing, so there is nothing to preserve.

  Values, on the extended reals. Both programs compute, from the same launch arrays, the same chain:
    scale the input rows by the outgoing-degree factor and project (first product);
    send the rows along the edges and sum them at their targets (one round of message passing);
    scale by the incoming-degree factor, add the bias, take the maximum with zero, rescale by the outgoing-degree factor,
    project (second product); one more round; scale, add the bias, take the maximum with zero, project on the four
    classes and add the class bias.
  The kernel computes each product 2000 rows at a time; a row of a product depends on that row of the input only, and the
  50 blocks cover all rows, so each call's output array is the whole-array product (Region0, Region1, Region2). The
  reference's products are the same sums entry by entry (RefValue). The degree factors, the bias rows and the rounds of
  message passing are the same host operations on both sides and are compared as such, never evaluated (KernelEntry,
  KernelValue). No sum is rearranged and no product distributed, so the finiteness of the inputs is not used.
-/
import proofs.«130394_j56942676410567_1_alg».proof.Defs
import proofs.«130394_j56942676410567_1_alg».proof.Proof.Gen.Kernel
import proofs.«130394_j56942676410567_1_alg».proof.Proof.Gen.Kernel.Frame
import proofs.«130394_j56942676410567_1_alg».proof.Proof.Gen.KernelIdeal
import proofs.«130394_j56942676410567_1_alg».proof.Proof.Gen.KernelIdeal.Frame
import proofs.«130394_j56942676410567_1_alg».proof.Proof.Gen.ReferenceIdeal
import proofs.«130394_j56942676410567_1_alg».proof.Proof.Gen.Pre_finite_inputs
import proofs.«130394_j56942676410567_1_alg».proof.Proof.RefRead
import proofs.«130394_j56942676410567_1_alg».proof.Proof.KernelRun
import proofs.«130394_j56942676410567_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the nine arguments, both programs end with the result array at the reference's last
    stage of the kernel's launch arrays: the kernel by its run and the walk back through its three calls, the reference
    by its run, read at arguments that are the kernel's. -/
theorem algebraic : Cert.algebraic_KernelIdeal_ReferenceIdeal := by
  intro m ρ m' ρ' _ hagree
  refine ⟨fun c => Cert.ReferenceIdeal.Read.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Walk.W10_v40 m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v71_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
